-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S1x64 : Shape := ⟨2, ![1, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S64 .f32) (main_arg6 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 4294867296#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x64 .f32) (main_arg1 : IVec S2x1600000 32) (main_arg2 : FVec F S1600000x1 .f32) (main_arg3 : FVec F S64x64 .f32) (main_arg4 : FVec F S1x64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg1 main_arg5 main_arg6 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S1x64 : Shape := ⟨2, ![1, 64]⟩
abbrev S64 : Shape := ⟨1, ![64]⟩
abbrev S1x1600000 : Shape := ⟨2, ![1, 1600000]⟩
abbrev S1600000 : Shape := ⟨1, ![1600000]⟩
abbrev S10000x64 : Shape := ⟨2, ![10000, 64]⟩
abbrev S1600000x64 : Shape := ⟨2, ![1600000, 64]⟩
abbrev S_ : Shape := ⟨0, ![]⟩
abbrev S1 : Shape := ⟨1, ![1]⟩
abbrev S1x1 : Shape := ⟨2, ![1, 1]⟩

abbrev nBuf : Space → Nat
  | .hbm => 55
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S1600000x64, .f32⟩
  | .hbm, ⟨13, _⟩ => ⟨S1x64, .f32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S1600000x64, .f32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x64, .f32⟩
  | .hbm, ⟨43, _⟩ => ⟨S1600000x64, .i1⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v15 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S10000x64_S64x64_S10000x64_1_0_0_1_n_n_wf : DotDims.WF S10000x64 S64x64 S10000x64 [1] [0] [0] [1] [] []
  dot_S1600000x1_S1x64_S1600000x64_1_0_0_1_n_n_wf : DotDims.WF S1600000x1 S1x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S1x64 : Shape := ⟨2, ![1, 64]⟩
abbrev S64 : Shape := ⟨1, ![64]⟩
abbrev S1x1600000 : Shape := ⟨2, ![1, 1600000]⟩
abbrev S1600000 : Shape := ⟨1, ![1600000]⟩
abbrev S1600000x64 : Shape := ⟨2, ![1600000, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S1600000x64, .f32⟩
  | .hbm, ⟨13, _⟩ => ⟨S1x64, .f32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S1600000x64, .f32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  dot_S1600000x1_S1x64_S1600000x64_1_0_0_1_n_n_wf : DotDims.WF S1600000x1 S1x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RefRun.lean ====
import proofs.«419371_j15865609191625_3_alg».proof.Proof.Gen.ReferenceIdeal.Run
import proofs.«419371_j15865609191625_3_alg».proof.Proof.Gen.ReferenceIdeal.Read

/-! The reference's run and its stages read at an index are the generated modules imported above. -/
-- ==== Proof.SrcRange.lean ====
import proofs.«419371_j15865609191625_3_alg».proof.Pre_finite_inputs
import Idealize.ShloMosaic.Lib.ReduceAll
import Idealize.ShloMosaic.Lib.StableHlo.Predicate
import Idealize.ShloMosaic.Lib.WordArith
import Idealize.ShloMosaic.Lib.ValueIdx

/-!
The precondition read back at the source indices. Besides the finiteness of the float inputs the precondition
asks that every source index `s` of the edge list (row 0) satisfies `-100000 ≤ s < 100000`: the range in which
`x_t[s]` names a row of the 100000-row table, a negative `s` counting from the end. This module turns the
printed predicate being all ones into that pair of inequalities on the signed value of each word.
-/

noncomputable section

namespace Cert.SrcRange

open Idealize.ShloMosaic Cert.Pre_finite_inputs

variable [Cert.Pre_finite_inputs.Facts]
open Cert.Pre_finite_inputs.Facts

/-- The vector of source indices: row 0 of the [2, 1600000] edge list, as a vector of 1600000 words. -/
abbrev srcOf (a1 : IVec S2x1600000 32) : IVec S1600000 32 :=
  shapeCast S1600000 (extractStridedSlice S1x1600000 ![0, 0] a1 slices_S2x1600000_S1x1600000_0_0) shapeCasts_S1x1600000_S1600000

/-- Where the precondition holds, every source index, read as a signed word, lies in `[-100000, 100000)`. -/
theorem src_in_range {F : FTy → Type} [FloatOps F] (a0 : FVec F S100000x64 .f32) (a1 : IVec S2x1600000 32)
    (a2 : FVec F S1600000x1 .f32) (a3 : FVec F S64x64 .f32) (a4 : FVec F S1x64 .f32) (a5 a6 : FVec F S64 .f32)
    (h : fn (F := F) a0 a1 a2 a3 a4 a5 a6 = fun _ => 1#1) (e : S1600000.Idx) :
    -100000 ≤ (srcOf a1 e).toInt ∧ (srcOf a1 e).toInt < 100000 := by
  -- The predicate at its one index: a conjunction whose last conjunct is the reduction over the source indices.
  have h0 := congrFun h ValueIdx.ix0
  dsimp only [fn, fn_part1, fn_part2] at h0
  have h1 := (IntOp.andi_eq_one.1 (show IntOp.andi _ _ = 1#1 from h0)).2
  -- The rank-0 result shape has exactly one index; a reduction by `and` into it that is 1 had a 1 at every
  -- element, so at `e`.
  haveI : Subsingleton S_.Idx := ⟨fun a b => funext fun d => d.elim0⟩
  have h2 := Host.reduce_andi_all _ _ _ _ _ h1 e
  -- At `e` the element is the `and` of the two signed comparisons of the source index with the bounds.
  obtain ⟨hge, hlt⟩ := IntOp.andi_eq_one.1 (show IntOp.andi _ _ = 1#1 from h2)
  have hlo : (4294867296#32 : BitVec 32).toInt ≤ (srcOf a1 e).toInt := IntOp.cmpi_sge.1 hge
  have hhi : (srcOf a1 e).toInt < (100000#32 : BitVec 32).toInt := IntOp.cmpi_slt.1 hlt
  -- The word 4294867296 read signed is -100000.
  have c1 : (4294867296#32 : BitVec 32).toInt = -100000 := by decide
  have c2 : (100000#32 : BitVec 32).toInt = 100000 := by decide
  rw [c1] at hlo
  rw [c2] at hhi
  exact ⟨hlo, hhi⟩

end Cert.SrcRange

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.Projected.lean ====
import proofs.«419371_j15865609191625_3_alg».proof.Proof.Gen.KernelIdeal.Frame
import proofs.«419371_j15865609191625_3_alg».proof.Proof.LibMatmulAt
import Idealize.ShloMosaic.Lib.Pipeline.Value
import Idealize.ShloMosaic.Lib.ValueIdx
import Idealize.ShloMosaic.PureOps.Ideal.Laws

/-!
The projected node features. The kernel region computes `x_t = x · w` ten thousand rows at a time: at grid point
`t` it multiplies rows `10000 t … 10000 t + 9999` of `x` by the whole 64 × 64 matrix `w` (both read through a change
of float format that is the identity on extended reals) and writes the 10000 × 64 product back as block `t` of the
result. This module shows that after the region the result array holds `proj x w`, entry `(p, q)` the sum over
`k` of `x (p, k) · w (k, q)`: each point's block is that function read through the block, and the ten blocks cover
the 100000 rows.
-/

set_option maxRecDepth 16384

noncomputable section

namespace Cert.KernelIdeal.Projected

open Idealize.ShloMosaic Idealize.ShloMosaic.TcCoe Idealize.SL.Sem Idealize.ShloMosaic.ValueIdx
open Idealize.ShloMosaic.Pipeline (Dat)
open Cert.KernelIdeal Cert.KernelIdeal.Gen

/-- The matrix product over the whole arrays: entry `(p, q)` is the sum over `k` of `x (p, k) · w (k, q)`. -/
def proj (x : FVec Ideal S100000x64 .f32) (w : FVec Ideal S64x64 .f32) : FVec Ideal S100000x64 .f32 :=
  fun i => ∑ k : Fin 64, x (ix2 (i 0) k) * w (ix2 k (i 1))

/-! ## The block product at an index -/

theorem lhs_blk_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blk_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blk_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blk_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at `(p, q)` of its block: the row `p` of the loaded rows against column `q` of the loaded
    matrix, the change of float format on each operand being the identity. -/
theorem pay_at (x0 : FVec Ideal S10000x64 .f32) (x1 : FVec Ideal S64x64 .f32) (p : Fin 10000) (q : Fin 64) :
    k0_pay1 (F := Ideal) x0 x1 (ix2 p q) = ∑ k : Fin 64, x0 (ix2 p k) * x1 (ix2 k q) := by
  unfold k0_pay1
  exact MatmulAt.matmul_at dot_S10000x64_S64x64_S10000x64_1_0_0_1_n_n rfl rfl lhs_blk_0 lhs_blk_1 rhs_blk_0 rhs_blk_1 none
    (truncf .bf16 x0 bitsLt_bf16_f32) (truncf .bf16 x1 bitsLt_bf16_f32) p q

variable (m : (ℓ : Loc nD τ sig) → Buf (Elt Ideal) ℓ)

/-! ## From the blocks to the array -/

/-- The node features as the region finds them, at their literal type. -/
abbrev xarr (c : Dev nD) : FVec Ideal S100000x64 .f32 := V m c main_arg0
/-- The weight matrix as the region finds it, at its literal type. -/
abbrev warr (c : Dev nD) : FVec Ideal S64x64 .f32 := V m c main_arg3

theorem hz : (![0, 0] : Fin 2 → Nat) = fun _ => 0 := funext fun a => by fin_cases a <;> rfl

/-- The printed index maps over the ten points: the row blocks of `x` move with the result's, every other block
    index is zero, and the result's row block at point `t` is `t`. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of `proj` of the two argument arrays as the region finds them. -/
theorem flushed_eq (c : Dev nD) (t : Fin cfg0.N) :
    (dats m 0 c).flushed 2 t = ((cfg0.win 2).blk t).view.read (Elt Ideal) (proj (xarr m c) (warr m c)) := by
  show (cfg0.win 2).cut (grid0.coords t) ((dats m 0 c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  refine (pay_at (iblk m c 0 t) (iblk m c 1 t) p q).trans ?_
  obtain ⟨e0, e1, e2, e3, e4, e5⟩ := idx_facts t
  show (∑ k : Fin 64, xarr m c (((cfg0.win 0).blk t).view.emb (ix2 p k)) * warr m c (((cfg0.win 1).blk t).view.emb (ix2 k q)))
    = ∑ k : Fin 64, xarr m c (ix2 ((((cfg0.win 2).blk t).view.emb (ix2 p q)) 0) k) * warr m c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]
  rfl

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every row `r` of the result lies in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by omega⟩
  obtain ⟨e0, e1, e2, e3, e4, e5⟩ := idx_facts t
  have ht : (t : Nat) = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array holds the product of the two argument arrays as launched. -/
theorem final (c : Dev nD) :
    (dats m 0 c).arrAt 2 cfg0.N = proj (m ((c : Thread nD τ).loc main_arg0)) (m ((c : Thread nD τ).loc main_arg3)) := by
  rw [(dats m 0 c).arrAt_eq_of_cover 2 (proj (xarr m c) (warr m c)) (fun t _ => flushed_eq m c t) cover]
  show proj (V m c main_arg0) (V m c main_arg3) = _
  rw [V_main_arg0, V_main_arg3]

end Cert.KernelIdeal.Projected

end
-- ==== Proof.TakeMask.lean ====
import Idealize.ShloMosaic.PureOps
import Idealize.ShloMosaic.PureOps.Reduce
import Idealize.ShloMosaic.Lib.ValueIdx
import Idealize.ShloMosaic.Lib.StableHlo.Predicate
import Idealize.ShloMosaic.Lib.WordArith

/-!
A row lookup that fills out-of-range rows, at indices that are all in range. The lookup first wraps a negative
index `s` to `s + 100000`, gathers the rows at the wrapped indices, and then keeps a gathered row only where the
wrapped index `w` satisfies `0 ≤ w ≤ 99999`, putting a fill value elsewhere. When every index satisfies
`-100000 ≤ s < 100000` the wrapped index is always in `[0, 99999]`, the keep-mask is all ones, and the lookup is
the gather.
-/

noncomputable section

namespace Cert.TakeMask

open Idealize.ShloMosaic

abbrev S_ : Shape := ⟨0, ![]⟩
abbrev S1 : Shape := ⟨1, ![1]⟩
abbrev S1x1 : Shape := ⟨2, ![1, 1]⟩
abbrev S1600000 : Shape := ⟨1, ![1600000]⟩
abbrev S1600000x1 : Shape := ⟨2, ![1600000, 1]⟩
abbrev S1600000x64 : Shape := ⟨2, ![1600000, 64]⟩

/-- The wrapped index vector: `s + 100000` where `s` is negative, `s` elsewhere. -/
def wrapped (b0 : S_.BroadcastsInDim S1600000 (![] : Fin 0 → Fin S1600000.rank)) (s : IVec S1600000 32) : IVec S1600000 32 :=
  select (cmpi .slt s (broadcastInDim S1600000 ![] b0 (constantI S_ 32 0#32)))
    (addi s (broadcastInDim S1600000 ![] b0 (constantI S_ 32 100000#32))) s

/-- The keep-mask of the lookup, one bit per index: `0 ≤ w ∧ w ≤ 99999` of the wrapped index as a column, reduced
    along the column's axis of extent one. -/
def keep (b0 : S_.BroadcastsInDim S1600000 (![] : Fin 0 → Fin S1600000.rank))
    (bc : S1600000.BroadcastsInDim S1600000x1 (![0] : Fin 1 → Fin S1600000x1.rank))
    (b1 : S_.BroadcastsInDim S1600000x1 (![] : Fin 0 → Fin S1600000x1.rank))
    (b2 : S1.BroadcastsInDim S1x1 (![1] : Fin 1 → Fin S1x1.rank))
    (b3 : S1x1.BroadcastsInDim S1600000x1 (![0, 1] : Fin 2 → Fin S1600000x1.rank))
    (hr : S1600000x1.ReducesTo [1] S1600000) (hu : 0 < S_.numel) (s : IVec S1600000 32) : IVec S1600000 1 :=
  Host.reduce IntOp.andi
    (andi (cmpi .sge (broadcastInDim S1600000x1 ![0] bc (wrapped b0 s)) (broadcastInDim S1600000x1 ![] b1 (constantI S_ 32 0#32)))
      (cmpi .sle (broadcastInDim S1600000x1 ![0] bc (wrapped b0 s))
        (broadcastInDim S1600000x1 ![0, 1] b3 (broadcastInDim S1x1 ![1] b2 (constantI S1 32 99999#32)))))
    (constantI S_ 1 1#1) hr hu

/-- The wrapped index of a word in `[-100000, 100000)` lies in `[0, 99999]`: a negative word gains `100000`
    without overflow, a non-negative one is kept. -/
theorem wrap_range (w : BitVec 32) (h1 : -100000 ≤ w.toInt) (h2 : w.toInt < 100000) :
    0 ≤ (Scalar.select (IntOp.cmpi .slt w 0#32) (IntOp.addi w 100000#32) w).toInt ∧
      (Scalar.select (IntOp.cmpi .slt w 0#32) (IntOp.addi w 100000#32) w).toInt ≤ 99999 := by
  have hc : (100000#32).toInt = 100000 := by decide
  have h0 : (0#32).toInt = 0 := by decide
  unfold Scalar.select IntOp.cmpi IntOp.addi
  simp only [WordArith.ofBool_eq_numeral_one_iff, BitVec.slt, decide_eq_true_eq, h0]
  by_cases h : w.toInt < 0
  · rw [if_pos h, WordArith.toInt_add_of_bounds w 100000#32 (by rw [hc]; omega) (by rw [hc]; omega), hc]
    omega
  · rw [if_neg h]
    omega

/-- A word in `[0, 99999]` passes both comparisons of the keep-mask. -/
theorem in_range_bit (v : BitVec 32) (h1 : 0 ≤ v.toInt) (h2 : v.toInt ≤ 99999) :
    IntOp.andi (IntOp.cmpi .sge v 0#32) (IntOp.cmpi .sle v 99999#32) = 1#1 := by
  have hc : (99999#32).toInt = 99999 := by decide
  have h0 : (0#32).toInt = 0 := by decide
  unfold IntOp.cmpi
  simp only [WordArith.andi_ofBool, WordArith.ofBool_eq_one_iff, BitVec.sle, Bool.and_eq_true, decide_eq_true_eq, h0, hc]
  exact ⟨h1, h2⟩

/-- A left fold of the one-bit `and` from one over a list whose entries are all one is one. -/
theorem foldl_andi_one {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a]
    exact ih

/-- With every index in `[-100000, 100000)` the keep-mask is one everywhere. -/
theorem keep_eq_one (b0 : S_.BroadcastsInDim S1600000 (![] : Fin 0 → Fin S1600000.rank))
    (bc : S1600000.BroadcastsInDim S1600000x1 (![0] : Fin 1 → Fin S1600000x1.rank))
    (b1 : S_.BroadcastsInDim S1600000x1 (![] : Fin 0 → Fin S1600000x1.rank))
    (b2 : S1.BroadcastsInDim S1x1 (![1] : Fin 1 → Fin S1x1.rank))
    (b3 : S1x1.BroadcastsInDim S1600000x1 (![0, 1] : Fin 2 → Fin S1600000x1.rank))
    (hr : S1600000x1.ReducesTo [1] S1600000) (hu : 0 < S_.numel) (s : IVec S1600000 32)
    (hs : ∀ e, -100000 ≤ (s e).toInt ∧ (s e).toInt < 100000) (e : S1600000.Idx) :
    keep b0 bc b1 b2 b3 hr hu s e = 1#1 := by
  unfold keep
  rw [Host.reduce_eq_foldl]
  refine foldl_andi_one _ (fun i => ?_) _
  simp only [andi, cmpi, broadcastInDim, constantI, wrapped, select, addi]
  obtain ⟨h1, h2⟩ := wrap_range _ (hs _).1 (hs _).2
  exact in_range_bit _ h1 h2

/-- With every index in range, selecting the gathered rows under the keep-mask (laid along the 64 columns) is the
    gathered rows: the fill is never used. -/
theorem select_keep_eq {α : Type} (b0 : S_.BroadcastsInDim S1600000 (![] : Fin 0 → Fin S1600000.rank))
    (bc : S1600000.BroadcastsInDim S1600000x1 (![0] : Fin 1 → Fin S1600000x1.rank))
    (b1 : S_.BroadcastsInDim S1600000x1 (![] : Fin 0 → Fin S1600000x1.rank))
    (b2 : S1.BroadcastsInDim S1x1 (![1] : Fin 1 → Fin S1x1.rank))
    (b3 : S1x1.BroadcastsInDim S1600000x1 (![0, 1] : Fin 2 → Fin S1600000x1.rank))
    (hr : S1600000x1.ReducesTo [1] S1600000) (hu : 0 < S_.numel)
    (bm : S1600000.BroadcastsInDim S1600000x64 (![0] : Fin 1 → Fin S1600000x64.rank)) (s : IVec S1600000 32)
    (hs : ∀ e, -100000 ≤ (s e).toInt ∧ (s e).toInt < 100000) (g fill : S1600000x64.Idx → α) :
    select (broadcastInDim S1600000x64 ![0] bm (keep b0 bc b1 b2 b3 hr hu s)) g fill = g := by
  funext i
  simp only [select, Scalar.select, broadcastInDim]
  exact if_pos (keep_eq_one b0 bc b1 b2 b3 hr hu s hs _)

end Cert.TakeMask

end
-- ==== Proof.KernelResult.lean ====
import proofs.«419371_j15865609191625_3_alg».proof.Proof.Gen.KernelIdeal.Frame
import proofs.«419371_j15865609191625_3_alg».proof.Proof.Gen.ReferenceIdeal.Read
import proofs.«419371_j15865609191625_3_alg».proof.Proof.Projected
import proofs.«419371_j15865609191625_3_alg».proof.Proof.TakeMask
import Idealize.ShloMosaic.Lib.StableHlo.Run

/-!
The kernel program's result as a function of its arguments. After the region has left `x_t = x · w` in its
array, the program's remaining lines compute the gates `1 / (1 + exp (-(a · W + b)))`, look the rows of `x_t` up
at the source indices, multiply, add the messages up per destination row and add the bias. The lookup keeps a
gathered row only where its wrapped index is in `[0, 99999]` and writes a fill value elsewhere; with every source
index in `[-100000, 100000)` it keeps every row, and the result is the reference's term: the same gather, over
`x · w` as one sum per entry.
-/

set_option maxRecDepth 16384

noncomputable section

namespace Cert.KernelIdeal.Result

open Idealize.ShloMosaic Idealize.ShloMosaic.TcCoe Idealize.SL.Sem Idealize.ShloMosaic.StableHlo
open Idealize.ShloMosaic.ValueIdx
open Cert.KernelIdeal Cert.KernelIdeal.Gen

/-! ## The reference's matrix product is the same sum -/

theorem lidx_eq (i : Cert.ReferenceIdeal.S100000x64.Idx) (k : Fin 64) :
    Cert.ReferenceIdeal.Read.lidx_main_v4 i k = ix2 (i 0) k :=
  funext fun a => Fin.ext (by match a with | ⟨0, _⟩ => rfl | ⟨1, _⟩ => rfl)
theorem ridx_eq (i : Cert.ReferenceIdeal.S100000x64.Idx) (k : Fin 64) :
    Cert.ReferenceIdeal.Read.ridx_main_v4 i k = ix2 k (i 1) :=
  funext fun a => Fin.ext (by match a with | ⟨0, _⟩ => rfl | ⟨1, _⟩ => rfl)

/-- The reference's product of the whole arrays is, entry by entry, the sum the kernel's blocks add up to. -/
theorem dot_eq_proj (x : FVec Ideal S100000x64 .f32) (w : FVec Ideal S64x64 .f32) :
    Host.dotGeneral Cert.ReferenceIdeal.dot_S100000x64_S64x64_S100000x64_1_0_0_1_n_n none x w = Projected.proj x w := by
  show Cert.ReferenceIdeal.Read.val_main_v4 (F := Ideal) x w = _
  funext i
  rw [Cert.ReferenceIdeal.Read.val_main_v4_apply]
  simp only [lidx_eq, ridx_eq]
  rfl

/-! ## The two programs' dimension records are the same records -/

theorem scatter_rec_eq : scatter_S100000x64_S1600000x1_S1600000x64_1_0_0_1
    = Cert.ReferenceIdeal.scatter_S100000x64_S1600000x1_S1600000x64_1_0_0_1 := rfl
theorem gather_rec_eq : gather_S100000x64_S1600000x1_S1600000x64_1_0_n_n_0_1_164
    = Cert.ReferenceIdeal.gather_S100000x64_S1600000x1_S1600000x64_1_0_n_n_0_1_164 := rfl
theorem gate_dot_rec_eq : dot_S1600000x1_S1x64_S1600000x64_1_0_0_1_n_n
    = Cert.ReferenceIdeal.dot_S1600000x1_S1x64_S1600000x64_1_0_0_1_n_n := rfl

/-! ## Values written and read at typed references

The lines of the row lookup name their buffers by typed references: a value is written as the contents of its
buffer's type and read back at the value's type, each a transport along the equation between the two types. -/

/-- A value written at a typed reference's buffer type and read back is the value, whatever the reference. -/
theorem ofBuf_toBuf {T : BufTy} (x : StableHlo.TRef sig T) (v : T.Contents (Elt Ideal)) : x.ofBuf (x.toBuf v) = v := by
  obtain ⟨r, h, a, b⟩ := x
  subst h
  rfl

/-- The source-index vector, the projected features and the lookup's result sit in buffers whose type is the value's
    own: the transport is the identity. -/
theorem read_v1 (h a b) (v : (main_v1 : Ref sig .tc).ty.Contents (Elt Ideal)) :
    (StableHlo.TRef.of (T := ⟨S1600000, .i32⟩) main_v1 h a b).ofBuf v = v := rfl
theorem read_v4 (h a b) (v : (main_v4 : Ref sig .tc).ty.Contents (Elt Ideal)) :
    (StableHlo.TRef.of (T := ⟨S100000x64, .f32⟩) main_v4 h a b).ofBuf v = v := rfl
theorem write_v15 (h a b) (v : (⟨S1600000x64, .f32⟩ : BufTy).Contents (Elt Ideal)) :
    (StableHlo.TRef.of (T := ⟨S1600000x64, .f32⟩) main_v15 h a b).toBuf v = v := rfl

variable (m : (ℓ : Loc nD τ sig) → Buf (Elt Ideal) ℓ)

/-! ## What the lines after the region read -/

/-- The source indices as the program reads them: row 0 of the edge list as a vector. -/
abbrev src (c : Dev nD) : IVec S1600000 32 :=
  shapeCast S1600000 (extractStridedSlice S1x1600000 ![0, 0] (m ((c : Thread nD τ).loc main_arg1)) slices_S2x1600000_S1x1600000_0_0) shapeCasts_S1x1600000_S1600000
/-- The destination indices: row 1 of the edge list as a vector. -/
abbrev dst (c : Dev nD) : IVec S1600000 32 :=
  shapeCast S1600000 (extractStridedSlice S1x1600000 ![1, 0] (m ((c : Thread nD τ).loc main_arg1)) slices_S2x1600000_S1x1600000_1_0) shapeCasts_S1x1600000_S1600000

/-- The region's result array, as the later lines find it, is the product of the two argument arrays. -/
theorem leaf_xt (c : Dev nD) :
    Pipeline.withArrays (cfgs 0).spec c (V0 m c) (fun w => (dats m 0 c).arrAt w (cfgs 0).N) (Proc.devRef .tc main_v4) = Projected.proj (m ((c : Thread nD τ).loc main_arg0)) (m ((c : Thread nD τ).loc main_arg3)) :=
  (Pipeline.withArrays_arr spec0 launch0.win.arr_inj c _ _ 2).trans (Projected.final m c)

/-- The source-index vector was written before the region and is no array of it. -/
theorem leaf_src (c : Dev nD) : Pipeline.withArrays (cfgs 0).spec c (V0 m c) (fun w => (dats m 0 c).arrAt w (cfgs 0).N) (Proc.devRef .tc main_v1) = src m c := by
  rw [Pipeline.withArrays_of_ne _ c (V0 m c) _ main_v1 (by exact (by decide : ∀ w, Pipeline.arrRef spec0 w ≠ main_v1))]
  show StableHlo.after hostOps0 (fun b => m (c, b)) (Proc.devRef .tc main_v1) = _
  after_results
  rfl
theorem leaf_dst (c : Dev nD) : Pipeline.withArrays (cfgs 0).spec c (V0 m c) (fun w => (dats m 0 c).arrAt w (cfgs 0).N) (Proc.devRef .tc main_v3) = dst m c := by
  rw [Pipeline.withArrays_of_ne _ c (V0 m c) _ main_v3 (by exact (by decide : ∀ w, Pipeline.arrRef spec0 w ≠ main_v3))]
  show StableHlo.after hostOps0 (fun b => m (c, b)) (Proc.devRef .tc main_v3) = _
  after_results
  rfl
theorem leaf_arg2 (c : Dev nD) : Pipeline.withArrays (cfgs 0).spec c (V0 m c) (fun w => (dats m 0 c).arrAt w (cfgs 0).N) (Proc.devRef .tc main_arg2) = (m ((c : Thread nD τ).loc main_arg2)) :=
  (Pipeline.withArrays_of_ne _ c (V0 m c) _ main_arg2 (by exact (by decide : ∀ w, Pipeline.arrRef spec0 w ≠ main_arg2))).trans (V_main_arg2 m c)
theorem leaf_arg4 (c : Dev nD) : Pipeline.withArrays (cfgs 0).spec c (V0 m c) (fun w => (dats m 0 c).arrAt w (cfgs 0).N) (Proc.devRef .tc main_arg4) = (m ((c : Thread nD τ).loc main_arg4)) :=
  (Pipeline.withArrays_of_ne _ c (V0 m c) _ main_arg4 (by exact (by decide : ∀ w, Pipeline.arrRef spec0 w ≠ main_arg4))).trans (V_main_arg4 m c)
theorem leaf_arg5 (c : Dev nD) : Pipeline.withArrays (cfgs 0).spec c (V0 m c) (fun w => (dats m 0 c).arrAt w (cfgs 0).N) (Proc.devRef .tc main_arg5) = (m ((c : Thread nD τ).loc main_arg5)) :=
  (Pipeline.withArrays_of_ne _ c (V0 m c) _ main_arg5 (by exact (by decide : ∀ w, Pipeline.arrRef spec0 w ≠ main_arg5))).trans (V_main_arg5 m c)
theorem leaf_arg6 (c : Dev nD) : Pipeline.withArrays (cfgs 0).spec c (V0 m c) (fun w => (dats m 0 c).arrAt w (cfgs 0).N) (Proc.devRef .tc main_arg6) = (m ((c : Thread nD τ).loc main_arg6)) :=
  (Pipeline.withArrays_of_ne _ c (V0 m c) _ main_arg6 (by exact (by decide : ∀ w, Pipeline.arrRef spec0 w ≠ main_arg6))).trans (V_main_arg6 m c)

/-! ## The program's result -/

set_option maxHeartbeats 4000000 in
/-- With every source index in `[-100000, 100000)` the kernel program's result is the reference's last stage at the
    same arguments. -/
theorem tail_eq (c : Dev nD) (hs : ∀ e, -100000 ≤ (src m c e).toInt ∧ (src m c e).toInt < 100000) :
    Pipeline.afterTail₀ cfgs (dats m) 0 (V0 m) [hostOps1, hostOps1_1, hostOps1_2] c main_v22
      = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  simp only [hostOps1, hostOps1_1, hostOps1_2, List.flatten_cons, List.flatten_nil, List.append_nil, List.cons_append, List.nil_append]
  after_results_simp
  simp only [ofBuf_toBuf, read_v1, read_v4, write_v15]
  rw [leaf_xt, leaf_src, leaf_dst, leaf_arg2, leaf_arg4, leaf_arg5, leaf_arg6]
  have hsel := fun (g fill : S1600000x64.Idx → Elt Ideal .f32) =>
    TakeMask.select_keep_eq bcast_S_S1600000 bcast_S1600000_S1600000x1_0 bcast_S_S1600000x1 bcast_S1_S1x1_1
      bcast_S1x1_S1600000x1_0_1 reducesTo_S1600000x1_S1600000_d1 h_S_ bcast_S1600000_S1600000x64_0 (src m c) hs g fill
  simp only [TakeMask.keep, TakeMask.wrapped] at hsel
  rw [hsel, ← Cert.ReferenceIdeal.Read.val_main_v28_eq, dot_eq_proj, scatter_rec_eq, gather_rec_eq, gate_dot_rec_eq]

end Cert.KernelIdeal.Result

end
-- ==== Proof.KernelRun.lean ====
import proofs.«419371_j15865609191625_3_alg».proof.Proof.KernelResult

/-!
The kernel program's run, with its result named: every weakly fair execution terminates, the result buffer holds
the reference's last stage at the kernel's own arguments (given the source indices in range), and the seven
argument arrays end as they were launched: the two the region stages because an input window's array is never
written, the other five because no line of the program writes them.
-/

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem kernel_run (hs : ∀ c e, -100000 ≤ (src m c e).toInt ∧ (src m c e).toInt < 100000) :
    θ_run (defs (F := Ideal)) (onTc (τ := τ) (main (F := Ideal))) ⟨m, fun _ => 0, ρ⟩ (fun r => ∀ c : Dev nD,
      r.2.mem ((c.tc : Thread nD τ).loc main_v22) = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v22 (Pipeline.mem_restRefs_of main_v22 (by decide) (by decide))).trans (tail_eq m c (hs c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Result

end
-- ==== Proof.lean ====
/- The proof of `Cert.Claim`: a gated message-passing layer. Both programs compute, for node features `x`, an edge list
   `(src, dst)`, edge attributes `a` and parameters `w`, `W`, `b`, `bias`,
     out[r, q] = bias[q] + Σ over the edges e with dst[e] = r of (x · w)[src[e], q] · sigmoid (a[e] · W[·, q] + b[q]).
   The kernel computes `x · w` in a tiled region, ten thousand rows a point, and looks its rows up with a lookup that
   writes a fill value where a (wrapped) source index is outside `[0, 99999]`; the reference computes `x · w` as one
   matrix product and clamps such an index instead. Under the precondition every source index lies in
   `[-100000, 100000)`, the wrapped index is always in range, the lookup keeps every gathered row, and the two
   results are one term: the ten blocks of the tiled product are the whole product, entry by entry the same sum
   (Proof/Projected.lean); the keep-mask is all ones (Proof/TakeMask.lean, from Proof/SrcRange.lean's reading of the
   precondition); the remaining lines are the same operations on both sides (Proof/KernelResult.lean).
   The three frames: the kernel's two are the region's frame; the reference's is its run with the result dropped. No
   rewrite was applied in idealizing the kernel, so `preserves` states nothing. -/
import proofs.«419371_j15865609191625_3_alg».proof.Defs
import proofs.«419371_j15865609191625_3_alg».proof.Proof.Gen.Kernel
import proofs.«419371_j15865609191625_3_alg».proof.Proof.Gen.Kernel.Skeleton
import proofs.«419371_j15865609191625_3_alg».proof.Proof.Gen.Kernel.Launch
import proofs.«419371_j15865609191625_3_alg».proof.Proof.Gen.Kernel.Points
import proofs.«419371_j15865609191625_3_alg».proof.Proof.Gen.Kernel.Frame
import proofs.«419371_j15865609191625_3_alg».proof.Proof.Gen.KernelIdeal
import proofs.«419371_j15865609191625_3_alg».proof.Proof.Gen.KernelIdeal.Skeleton
import proofs.«419371_j15865609191625_3_alg».proof.Proof.Gen.KernelIdeal.Launch
import proofs.«419371_j15865609191625_3_alg».proof.Proof.Gen.KernelIdeal.Points
import proofs.«419371_j15865609191625_3_alg».proof.Proof.Gen.KernelIdeal.Frame
import proofs.«419371_j15865609191625_3_alg».proof.Proof.Gen.ReferenceIdeal
import proofs.«419371_j15865609191625_3_alg».proof.Proof.Gen.ReferenceIdeal.Run
import proofs.«419371_j15865609191625_3_alg».proof.Proof.Gen.ReferenceIdeal.Read
import proofs.«419371_j15865609191625_3_alg».proof.Proof.Gen.Pre_finite_inputs
import proofs.«419371_j15865609191625_3_alg».proof.Proof.RefRun
import proofs.«419371_j15865609191625_3_alg».proof.Proof.SrcRange
import proofs.«419371_j15865609191625_3_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the reference's last stage of those arguments:
    the kernel by its run (the source indices in range by the precondition), the reference by its own. -/
theorem algebraic : Cert.algebraic_KernelIdeal_ReferenceIdeal := by
  intro m ρ m' ρ' hpre hagree
  refine ⟨fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact Cert.KernelIdeal.Result.kernel_run m ρ (fun c e => Cert.SrcRange.src_in_range _ _ _ _ _ _ _ (hpre c) e)
  · refine (θ_run Cert.ReferenceIdeal.defs _ _).mono (fun _ h c => ⟨?_, (h c).2⟩) (Cert.ReferenceIdeal.Value.run (F := Ideal) m' ρ')
    rw [(h c).1, Cert.ReferenceIdeal.Read.val_main_v28_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
